-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_13 : Index := 0#32
  ![v24.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  h_S400x16 : 0 < S400x16.numel
  shapeCasts_S400x16_S400x16 : S400x16.ShapeCasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S10000x16_S16x16_S10000x16_1_0_0_1_n_n_wf : DotDims.WF S10000x16 S16x16 S10000x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h3 : k0_cond3 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KBShared.lean ====
/-
  What the four runs of the graph-convolution kernel body share: the body's four branch conditions over the
  grid (2 passes x 25 row blocks, point t = 25 * pass + row block) in closed form, where the output window is
  idle and where it is written back, the offsets of the row slice of the hidden-activation scratch, and the
  class invariant with the two scratch buffers (the support vectors and the hidden activations) as memrefs.
-/
import proofs.«151533_g13606456393732_cont_sun_m_1345_4_alg».proof.Proof.Gen.Kernel.Frame
import proofs.«151533_g13606456393732_cont_sun_m_1345_4_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- First pass, first row block: the support vectors `x W1` are computed. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Second pass, first row block: the support vectors `relu(h) W2` are computed. -/
abbrev cond2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- First pass: a row slice of the hidden activations is stored. -/
abbrev cond3 (i : grid0.Coords) : Prop := k0_cond3 i = 1#1
/-- Second pass: the output block is stored. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 25 :=
  (by decide +kernel : ∀ t : Fin grid0.N, cond2 (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-! ## The output window: idle through the first pass, stored and written back at every point of the second -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem idleAt6 : ∀ t : Fin cfg0.N, t.val < 25 → cfg0.idle 6 (grid0.coords t) = true := by decide +kernel
theorem noFlush6 : ∀ t : Fin cfg0.N, t.val < 25 → (cfg0.win 6).flush t = false := by decide +kernel
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-- In the first pass, row block `t` of the hidden activations starts at row `400 t`. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging memrefs at a point, and the two scratch buffers -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The support-vector scratch. -/
abbrev scS : Memref sig .tc .vmem S10000x16 .f32 := Memref.whole cc0_scratch0
/-- The hidden-activation scratch. -/
abbrev scH : Memref sig .tc .vmem S10000x16 .f32 := Memref.whole cc0_scratch1
/-- One staging buffer of the output window, through which its contents are stated. -/
abbrev VO6 : View sig .tc .vmem S400x16 .f32 := (Memref.whole cc0_stg6_0 : Memref sig .tc .vmem S400x16 .f32).view

/-- The class invariant with the two scratch buffers as memrefs owned at some contents. -/
theorem PhiA0_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

end Cert.Kernel.Gen

end
-- ==== Proof.KBRunA.lean ====
/-
  The kernel body at the first point (first pass, first row block): the support vectors `x W1` are stored over the
  whole support scratch, read back, multiplied by the adjacency row block, the bias added, and the result stored
  into rows [0, 400) of the hidden-activation scratch; the output block is not touched.
-/
import proofs.«151533_g13606456393732_cont_sun_m_1345_4_alg».proof.Proof.KBShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    Σ' (LS : List (View.Piece (Elt F) S10000x16 .f32)), { LH : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LS) ∗ (∃ f, ⌜arg10.view.read (Elt F) f = xh⌝ ∗ arg10.view.loc (c : Thread nD τ) ↦[arg10.view.set]{fullShare} arg10.view.writes (Elt F) f LH)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS]
    · iexists _; iexact HS
    iexists _; isplitr; · ipureintro; exact harg10.read_unread _
    iexact HH

end Cert.Kernel.Gen

end
-- ==== Proof.KBRunB.lean ====
/-
  The kernel body at a later point of the first pass: the support vectors are read from their scratch, multiplied by
  the adjacency row block, the bias added, and the result stored into this point's 400 rows of the hidden-activation
  scratch; the output block is not touched.
-/
import proofs.«151533_g13606456393732_cont_sun_m_1345_4_alg».proof.Proof.KBRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) (xh : Vec F S10000x16 .f32) :
    { LH : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xs ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xs ∗ (∃ f, ⌜arg10.view.read (Elt F) f = xh⌝ ∗ arg10.view.loc (c : Thread nD τ) ↦[arg10.view.set]{fullShare} arg10.view.writes (Elt F) f LH)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs; obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS]
    · iexists _; isplitr; · ipureintro; exact harg9.read_unread _
      iexact HS
    iexists _; isplitr; · ipureintro; exact harg10.read_unread _
    iexact HH

end Cert.Kernel.Gen

end
-- ==== Proof.KBRunC.lean ====
/-
  The kernel body at the first point of the second pass: the hidden activations are read whole, rectified,
  multiplied by `W2` and stored over the whole support scratch; read back, they are multiplied by the adjacency row
  block, the bias added, and the result stored over the whole output block.
-/
import proofs.«151533_g13606456393732_cont_sun_m_1345_4_alg».proof.Proof.KBRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    Σ' (L6 : List (View.Piece (Elt F) S400x16 .f32)), { LS : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS) ∗ owns (c : Thread nD τ) arg10 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS]
    · iexists _; iexact HS
    iexists _; isplitr; · ipureintro; exact harg10.read_unread _
    iexact HH

end Cert.Kernel.Gen

end
-- ==== Proof.KBRunD.lean ====
/-
  The kernel body at a point of the second pass after its first (no support vectors recomputed): the adjacency row
  block times the support vectors plus the bias is stored over the whole output block; the support-vector scratch
  is only read, the hidden-activation scratch untouched.
-/
import proofs.«151533_g13606456393732_cont_sun_m_1345_4_alg».proof.Proof.KBRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; isplitr; · ipureintro; exact harg9.read_unread _
    iexact HS

end Cert.Kernel.Gen

end
-- ==== Proof.KBPieces.lean ====
/-
  What the four runs of the kernel body store, piece by piece, over named payloads: the support scratch receives
  `x W1` (first point) or `relu(h) W2` (first point of the second pass) over its whole extent; the hidden scratch
  receives, at a point of the first pass, rows [400 r, 400 r + 400) of `adj s + b1`; the output block receives, at a
  point of the second pass, its whole 400 rows of `adj s + b2`. A load of the whole support scratch after the whole
  store reads the stored payload.
-/
import proofs.«151533_g13606456393732_cont_sun_m_1345_4_alg».proof.Proof.KBRunD
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

/-- The first point: the support scratch receives `x W1`, whole. -/
theorem runA_LS (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunA c i arg2 harg2 arg3 harg3 arg4 harg4 arg5 harg5 arg6 harg6 arg7 harg7 arg8 harg8 arg9 harg9 arg10 harg10 hc1 hc2 hc3 hc4 x0 x1 x2 x3 x4 x5 xh).1
      = [⟨Rect.unit (s := S10000x16) ![0, 0] S10000x16.size inb_S10000x16_S10000x16_0_0, k0_pay1 x0 x2⟩] := by
  unfold kernelRunA; dsimp only; sl_unfold_words
  simp only [View.readAt_eq_ld, harg2.read_unread, harg4.read_unread, View.ld_unit_zero (S := S10000x128) hz2,
    View.ld_unit_zero (S := S128x16) hz2]

/-- The first point: the hidden scratch receives the first row block of `adj (x W1) + b1`. -/
theorem runA_LH (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunA c i arg2 harg2 arg3 harg3 arg4 harg4 arg5 harg5 arg6 harg6 arg7 harg7 arg8 harg8 arg9 harg9 arg10 harg10 hc1 hc2 hc3 hc4 x0 x1 x2 x3 x4 x5 xh).2.1
      = [⟨Rect.unit (s := S10000x16) (k0_off1 i) S400x16.size (k0_off1_inb i hc3), k0_pay4 x1 (k0_pay1 x0 x2) x3⟩] := by
  unfold kernelRunA; dsimp only; sl_unfold_words
  simp only [View.readAt_eq_ld, harg2.read_unread, harg3.read_unread, harg4.read_unread, harg5.read_unread,
    View.ld_unit_zero (S := S10000x128) hz2, View.ld_unit_zero (S := S128x16) hz2, View.ld_unit_zero (S := S400x10000) hz2,
    View.ld_unit_zero (S := S1x16) hz2, View.readCov_unit_zero (S := S10000x16) _ hz2]

/-- A later point of the first pass: the hidden scratch receives this point's row block of `adj s + b1`. -/
theorem runB_LH (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) (xh : Vec F S10000x16 .f32) :
    (kernelRunB c i arg2 harg2 arg3 harg3 arg4 harg4 arg5 harg5 arg6 harg6 arg7 harg7 arg8 harg8 arg9 harg9 arg10 harg10 hc1 hc2 hc3 hc4 x0 x1 x2 x3 x4 x5 xs xh).1
      = [⟨Rect.unit (s := S10000x16) (k0_off1 i) S400x16.size (k0_off1_inb i hc3), k0_pay4 x1 xs x3⟩] := by
  unfold kernelRunB; dsimp only; sl_unfold_words
  simp only [View.readAt_eq_ld, harg3.read_unread, harg5.read_unread, harg9.read_unread,
    View.ld_unit_zero (S := S400x10000) hz2, View.ld_unit_zero (S := S1x16) hz2, View.ld_unit_zero (S := S10000x16) hz2]

/-- The first point of the second pass: the support scratch receives `relu(h) W2`, whole. -/
theorem runC_LS (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunC c i arg2 harg2 arg3 harg3 arg4 harg4 arg5 harg5 arg6 harg6 arg7 harg7 arg8 harg8 arg9 harg9 arg10 harg10 hc1 hc2 hc3 hc4 x0 x1 x2 x3 x4 x5 xh).2.1
      = [⟨Rect.unit (s := S10000x16) ![0, 0] S10000x16.size inb_S10000x16_S10000x16_0_0, k0_pay2 xh x4⟩] := by
  unfold kernelRunC; dsimp only; sl_unfold_words
  simp only [View.readAt_eq_ld, harg10.read_unread, harg6.read_unread, View.ld_unit_zero (S := S10000x16) hz2,
    View.ld_unit_zero (S := S16x16) hz2]

/-- The first point of the second pass: the output block receives `adj (relu(h) W2) + b2`, whole. -/
theorem runC_L6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunC c i arg2 harg2 arg3 harg3 arg4 harg4 arg5 harg5 arg6 harg6 arg7 harg7 arg8 harg8 arg9 harg9 arg10 harg10 hc1 hc2 hc3 hc4 x0 x1 x2 x3 x4 x5 xh).1
      = [⟨Rect.unit (s := S400x16) ![0, 0] S400x16.size inb_S400x16_S400x16_0_0, k0_pay5 x1 (k0_pay2 xh x4) x5⟩] := by
  unfold kernelRunC; dsimp only; sl_unfold_words
  simp only [View.readAt_eq_ld, harg10.read_unread, harg6.read_unread, harg3.read_unread, harg7.read_unread,
    View.ld_unit_zero (S := S10000x16) hz2, View.ld_unit_zero (S := S16x16) hz2, View.ld_unit_zero (S := S400x10000) hz2,
    View.ld_unit_zero (S := S1x16) hz2, View.readCov_unit_zero (S := S10000x16) _ hz2]

/-- A later point of the second pass: the output block receives `adj s + b2`, whole. -/
theorem runD_L6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) :
    (kernelRunD c i arg2 harg2 arg3 harg3 arg4 harg4 arg5 harg5 arg6 harg6 arg7 harg7 arg8 harg8 arg9 harg9 arg10 harg10 hc1 hc2 hc3 hc4 x0 x1 x2 x3 x4 x5 xs).1
      = [⟨Rect.unit (s := S400x16) ![0, 0] S400x16.size inb_S400x16_S400x16_0_0, k0_pay5 x1 xs x5⟩] := by
  unfold kernelRunD; dsimp only; sl_unfold_words
  simp only [View.readAt_eq_ld, harg3.read_unread, harg7.read_unread, harg9.read_unread,
    View.ld_unit_zero (S := S400x10000) hz2, View.ld_unit_zero (S := S1x16) hz2, View.ld_unit_zero (S := S10000x16) hz2]

end Cert.Kernel.Gen

end
-- ==== Proof.KBSpec.lean ====
/-
  What the two-layer graph convolution holds in its buffers, point by point, and the pipeline's proof data.
  The grid is 2 passes x 25 row blocks of 400 rows. The support scratch holds `s1 = x W1` through the first pass and
  `s2 = relu(h) W2` through the second; the hidden scratch holds, after the first pass's point r, rows [0, 400 (r + 1))
  of `h = adj s1 + b1` (row block r is the adjacency row block r times s1, plus the bias row); the output block at
  point (1, r) is the adjacency row block r times s2, plus the bias row. None of it is a recursion over the points:
  each is a closed term of the input blocks.
-/
import proofs.«151533_g13606456393732_cont_sun_m_1345_4_alg».proof.Proof.KBPieces
import Idealize.ShloMosaic.Lib.ValueIdx
import Idealize.ShloMosaic.Lib.WritesUnit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Grid point number `n`. -/
abbrev pt (n : ℕ) (h : n < 50) : Fin cfg0.N := ⟨n, lt_of_lt_of_eq h N50.symm⟩

/-! ## The input blocks at a point, at their literal types -/

abbrev xB (c : Dev nD) (t : Fin cfg0.N) : Vec F S10000x128 .f32 := iblk m c 0 t
abbrev aB (c : Dev nD) (t : Fin cfg0.N) : Vec F S400x10000 .f32 := iblk m c 1 t
abbrev w1B (c : Dev nD) (t : Fin cfg0.N) : Vec F S128x16 .f32 := iblk m c 2 t
abbrev b1B (c : Dev nD) (t : Fin cfg0.N) : Vec F S1x16 .f32 := iblk m c 3 t
abbrev w2B (c : Dev nD) (t : Fin cfg0.N) : Vec F S16x16 .f32 := iblk m c 4 t
abbrev b2B (c : Dev nD) (t : Fin cfg0.N) : Vec F S1x16 .f32 := iblk m c 5 t

/-! ## The buffers' contents -/

/-- The layer-1 support vectors `x W1`. -/
def sup1 (c : Dev nD) : Vec F S10000x16 .f32 := k0_pay1 (xB m c (pt 0 (by omega))) (w1B m c (pt 0 (by omega)))

/-- The first-pass point whose row block holds row `y 0`. -/
def rowPt (y : S10000x16.Idx) : Fin cfg0.N :=
  pt ((y 0).val / 400) (by have h : (y 0).val < 10000 := (y 0).isLt; omega)

/-- The position of index `y` inside its 400-row block. -/
def rowLoc (y : S10000x16.Idx) : S400x16.Idx :=
  ValueIdx.ix2 (⟨(y 0).val % 400, Nat.mod_lt _ (by omega)⟩ : Fin 400) (⟨(y 1).val, (y 1).isLt⟩ : Fin 16)

/-- The hidden activations `adj (x W1) + b1`, row block by row block. -/
def hid (c : Dev nD) : Vec F S10000x16 .f32 :=
  fun y => k0_pay4 (aB m c (rowPt y)) (sup1 m c) (b1B m c (rowPt y)) (rowLoc y)

/-- The layer-2 support vectors `relu(h) W2`. -/
def sup2 (c : Dev nD) : Vec F S10000x16 .f32 := k0_pay2 (hid m c) (w2B m c (pt 25 (by omega)))

/-- The output block of a second-pass point: its adjacency row block times `relu(h) W2`, plus the bias row. -/
def outB (c : Dev nD) (t : Fin cfg0.N) : Vec F S400x16 .f32 := k0_pay5 (aB m c t) (sup2 m c) (b2B m c t)

/-! ## The region invariant -/

/-- Before position `n`: nothing known before the first point; through the first pass the support scratch at `x W1`
    and the hidden scratch at the hidden activations on the rows stored so far; through the second pass the support
    scratch at `relu(h) W2`. The generator register at some state throughout. -/
def PhiS (c : Dev nD) : (n : ℕ) → n ≤ cfg0.N → sProp 𝕄
  | 0, _ => Pipeline.ΦA spec0 c
  | n + 1, _ =>
    if n + 1 ≤ 25 then
      iprop(iprop(owns (c : Thread nD τ) scS fullShare (sup1 m c)
        ∗ (∃ h : Vec F S10000x16 .f32, ⌜∀ y : S10000x16.Idx, (y 0).val < 400 * (n + 1) → h y = hid m c y⌝ ∗ owns (c : Thread nD τ) scH fullShare h))
        ∗ (∃ r, prngReg c r))
    else
      iprop(iprop(owns (c : Thread nD τ) scS fullShare (sup2 m c) ∗ (∃ h, owns (c : Thread nD τ) scH fullShare h))
        ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (h1 : 1 ≤ n) (h2 : n ≤ 25) :
    PhiS m c n h = iprop(iprop(owns (c : Thread nD τ) scS fullShare (sup1 m c)
        ∗ (∃ h : Vec F S10000x16 .f32, ⌜∀ y : S10000x16.Idx, (y 0).val < 400 * n → h y = hid m c y⌝ ∗ owns (c : Thread nD τ) scH fullShare h))
        ∗ (∃ r, prngReg c r)) := by
  cases n with
  | zero => omega
  | succ n => exact if_pos h2

theorem PhiS_hi (c : Dev nD) (n : ℕ) (h : n ≤ cfg0.N) (h2 : 25 < n) :
    PhiS m c n h = iprop(iprop(owns (c : Thread nD τ) scS fullShare (sup2 m c) ∗ (∃ h, owns (c : Thread nD τ) scH fullShare h))
        ∗ (∃ r, prngReg c r)) := by
  cases n with
  | zero => omega
  | succ n => exact if_neg (by omega)

/-! ## The pipeline's proof data -/

/-- The arrays as the region finds them; after the body each input's buffer at its block and the output's at the
    point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Gen

end
-- ==== Proof.KBBody.lean ====
/-
  The body obligation of the graph-convolution kernel at every grid point, the frame run and the frame.
  At the first point the support scratch is filled with `x W1` and rows [0, 400) of the hidden scratch stored; at a
  later point of the first pass the next 400 rows are stored, the rows below kept; at the first point of the second
  pass the hidden activations, now complete, are turned into `relu(h) W2` and the first output block stored; at a
  later point the next output block. The output window is idle through the first pass and handed back untouched.
-/
import proofs.«151533_g13606456393732_cont_sun_m_1345_4_alg».proof.Proof.KBSpec

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Storing a first-pass point's row block keeps the rows below it and adds its own 400 rows of the hidden
    activations. -/
theorem hid_step (c : Dev nD) (t : Fin cfg0.N) (ht : t.val < 25) (v : View sig .tc .vmem S10000x16 .f32)
    (f : v.ty.Contents (Elt F)) (xh : Vec F S10000x16 .f32) (hf : v.read (Elt F) f = xh)
    (inb : ∀ a, (k0_off1 (grid0.coords t)) a + S400x16.size a ≤ S10000x16.size a)
    (hprev : ∀ y : S10000x16.Idx, (y 0).val < 400 * t.val → xh y = hid m c y)
    (y : S10000x16.Idx) (hy : (y 0).val < 400 * (t.val + 1)) :
    v.read (Elt F) (v.writes (Elt F) f [⟨Rect.unit (s := S10000x16) (k0_off1 (grid0.coords t)) S400x16.size inb,
        k0_pay4 (aB m c t) (sup1 m c) (b1B m c t)⟩]) y = hid m c y := by
  by_cases hlo : (y 0).val < 400 * t.val
  · rw [View.read_writes_cons_rows_of_not_mem v f inb _ [] y (off1_eq t ht) rfl (Or.inl hlo)]
    rw [View.writes_nil, hf]; exact hprev y hlo
  · have hrow : (y 0).val / 400 = t.val := by omega
    rw [View.read_writes_cons_rows_of_mem v f inb _ [] y (rowLoc y) (off1_eq t ht)
      (by show (y 0).val = 400 * t.val + (y 0).val % 400; omega) rfl]
    have hpt : rowPt y = t := Fin.ext hrow
    unfold hid; rw [hpt]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl]
  have hN : t.val < 50 := lt_of_lt_of_eq t.isLt N50
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [PhiS_castSucc m c t]
  by_cases hlt : t.val < 25
  · -- the first pass: the output window idle
    rw [Dat.leavesExact_idle (dats m 0 c) 6 t (idleAt6 t hlt) (noFlush6 t hlt)]
    have c2 : ¬cond2 (grid0.coords t) := fun h => by have := (hcond2 t).mp h; omega
    have c3 : cond3 (grid0.coords t) := (hcond3 t).mpr hlt
    have c4 : ¬cond4 (grid0.coords t) := fun h => by have := (hcond4 t).mp h; omega
    by_cases h0 : t.val = 0
    · -- the first point
      have c1 : cond1 (grid0.coords t) := (hcond1 t).mpr h0
      rw [PhiS_zero m c _ _ h0, PhiA0_eq, PhiS_lo m c (t.val + 1) t.isLt (by omega) (by omega)]
      iintro ⟨⟨⟨⟨%ds, HS⟩, ⟨%dh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) dh).2.2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      isplitl [HH]; · iexact HH
      iintro ⟨H0, H1, H2, H3, H4, H5, ⟨%fs, HS⟩, ⟨%fh, %hfh, HH⟩⟩
      isplitl [HS HH Hg]
      · isplitr [Hg]
        swap; · iexact Hg
        isplitl [HS]
        · unfold owns; iexists _; isplitr
          swap; · iexact HS
          ipureintro
          rw [runA_LS, View.read_writes_eq_canon _ _ _ (fun y => ⟨_, List.mem_singleton_self _, View.mem_set_unit_zero hz2 inb_S10000x16_S10000x16_0_0 y⟩),
            View.canon_unit_zero hz2]
          have ht0 : t = pt 0 (by omega) := Fin.ext h0
          unfold sup1; rw [← ht0]
        · iexists _; isplitr
          swap
          · unfold owns; iexists _; isplitr
            swap; · iexact HH
            ipureintro; rfl
          ipureintro
          intro y hy
          rw [runA_LH]
          have hs1 : k0_pay1 (iblk m c 0 t) (iblk m c 2 t) = sup1 m c := by
            have ht0 : t = pt 0 (by omega) := Fin.ext h0
            unfold sup1; rw [← ht0]
          rw [hs1]
          exact hid_step m c t hlt _ fh dh hfh _ (fun y hy' => by omega) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of the first pass
      have c1 : ¬cond1 (grid0.coords t) := fun h => h0 ((hcond1 t).mp h)
      rw [PhiS_lo m c t.val (Nat.le_of_lt t.isLt) (by omega) (by omega), PhiS_lo m c (t.val + 1) t.isLt (by omega) (by omega)]
      iintro ⟨⟨⟨HS, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (sup1 m c) dh).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HH]; · iexact HH
      iintro ⟨H0, H1, H2, H3, H4, H5, HS, ⟨%fh, %hfh, HH⟩⟩
      isplitl [HS HH Hg]
      · isplitr [Hg]
        swap; · iexact Hg
        isplitl [HS]; · iexact HS
        iexists _; isplitr
        swap
        · unfold owns; iexists _; isplitr
          swap; · iexact HH
          ipureintro; rfl
        ipureintro
        intro y hy
        rw [runB_LH]
        exact hid_step m c t hlt _ fh dh hfh _ hdh y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second pass: the output block stored whole
    have hge : 25 ≤ t.val := by omega
    rw [show (dats m 0 c).leavesExact 6 t = owns (c : Thread nD τ) (ms6 t) fullShare ((dats m 0 c).after 6 t) from by
      unfold Dat.leavesExact; rw [liveAt6 t hge], after6]
    have c1 : ¬cond1 (grid0.coords t) := fun h => by have := (hcond1 t).mp h; omega
    have c3 : ¬cond3 (grid0.coords t) := fun h => by have := (hcond3 t).mp h; omega
    have c4 : cond4 (grid0.coords t) := (hcond4 t).mpr hge
    rw [PhiS_hi m c (t.val + 1) t.isLt (by omega)]
    by_cases h25 : t.val = 25
    · -- its first point
      have c2 : cond2 (grid0.coords t) := (hcond2 t).mpr h25
      rw [PhiS_lo m c t.val (Nat.le_of_lt t.isLt) (by omega) (by omega)]
      iintro ⟨⟨⟨HS, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      have hdh' : dh = hid m c := funext fun y => hdh y (by have h : (y 0).val < 10000 := (y 0).isLt; omega)
      subst hdh'
      iapply ((kernelRunC c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (hid m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      isplitl [HH]; · iexact HH
      iintro ⟨H0, H1, H2, H3, H4, H5, ⟨%f6, H6⟩, ⟨%fs, HS⟩, HH⟩
      have hs2 : k0_pay2 (hid m c) (iblk m c 4 t) = sup2 m c := by
        have ht0 : t = pt 25 (by omega) := Fin.ext h25
        unfold sup2; rw [← ht0]
      isplitl [HS HH Hg]
      · isplitr [Hg]
        swap; · iexact Hg
        isplitl [HS]
        · unfold owns; iexists _; isplitr
          swap; · iexact HS
          ipureintro
          rw [runC_LS, View.read_writes_eq_canon _ _ _ (fun y => ⟨_, List.mem_singleton_self _, View.mem_set_unit_zero hz2 inb_S10000x16_S10000x16_0_0 y⟩),
            View.canon_unit_zero hz2]
          exact hs2
        · iexists _; iexact HH
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_L6, View.read_writes_eq_canon _ _ _ (fun y => ⟨_, List.mem_singleton_self _, View.mem_set_unit_zero hz2 inb_S400x16_S400x16_0_0 y⟩),
        View.canon_unit_zero hz2, hs2]
      rfl
    · -- a later point
      have c2 : ¬cond2 (grid0.coords t) := fun h => h25 ((hcond2 t).mp h)
      rw [PhiS_hi m c t.val (Nat.le_of_lt t.isLt) (by omega)]
      iintro ⟨⟨⟨HS, HH⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunD c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (sup2 m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%f6, H6⟩, HS⟩
      isplitl [HS HH Hg]
      · isplitr [Hg]
        swap; · iexact Hg
        isplitl [HS]; · iexact HS
        iexact HH
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runD_L6, View.read_writes_eq_canon _ _ _ (fun y => ⟨_, List.mem_singleton_self _, View.mem_set_unit_zero hz2 inb_S400x16_S400x16_0_0 y⟩),
        View.canon_unit_zero hz2]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N50]; omega), PhiA0_eq]
  iintro ⟨⟨HS, HH⟩, Hg⟩
  isplitr [Hg]
  swap; · iexact Hg
  isplitl [HS]
  · iexists _; iexact HS
  iexact HH

set_option backward.isDefEq.respectTransparency.types false in
/-- Every weakly fair execution of @main terminates, every array of the pipeline at what the library computes from the
    proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KIShared.lean ====
/-
  What the four runs of the graph-convolution kernel body share: the body's four branch conditions over the
  grid (2 passes x 25 row blocks, point t = 25 * pass + row block) in closed form, where the output window is
  idle and where it is written back, the offsets of the row slice of the hidden-activation scratch, and the
  class invariant with the two scratch buffers (the support vectors and the hidden activations) as memrefs.
-/
import proofs.«151533_g13606456393732_cont_sun_m_1345_4_alg».proof.Proof.Gen.KernelIdeal.Frame
import proofs.«151533_g13606456393732_cont_sun_m_1345_4_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- First pass, first row block: the support vectors `x W1` are computed. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Second pass, first row block: the support vectors `relu(h) W2` are computed. -/
abbrev cond2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- First pass: a row slice of the hidden activations is stored. -/
abbrev cond3 (i : grid0.Coords) : Prop := k0_cond3 i = 1#1
/-- Second pass: the output block is stored. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 25 :=
  (by decide +kernel : ∀ t : Fin grid0.N, cond2 (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-! ## The output window: idle through the first pass, stored and written back at every point of the second -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem idleAt6 : ∀ t : Fin cfg0.N, t.val < 25 → cfg0.idle 6 (grid0.coords t) = true := by decide +kernel
theorem noFlush6 : ∀ t : Fin cfg0.N, t.val < 25 → (cfg0.win 6).flush t = false := by decide +kernel
theorem liveAt6 : ∀ t : Fin cfg0.N, 25 ≤ t.val → cfg0.idle 6 (grid0.coords t) = false := by decide +kernel
theorem flush6 : ∀ t : Fin cfg0.N, 25 ≤ t.val → (cfg0.win 6).flush t = true := by decide +kernel

/-- In the first pass, row block `t` of the hidden activations starts at row `400 t`. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## The staging memrefs at a point, and the two scratch buffers -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The support-vector scratch. -/
abbrev scS : Memref sig .tc .vmem S10000x16 .f32 := Memref.whole cc0_scratch0
/-- The hidden-activation scratch. -/
abbrev scH : Memref sig .tc .vmem S10000x16 .f32 := Memref.whole cc0_scratch1
/-- One staging buffer of the output window, through which its contents are stated. -/
abbrev VO6 : View sig .tc .vmem S400x16 .f32 := (Memref.whole cc0_stg6_0 : Memref sig .tc .vmem S400x16 .f32).view

/-- The class invariant with the two scratch buffers as memrefs owned at some contents. -/
theorem PhiA0_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

end Cert.KernelIdeal.Gen

end
-- ==== Proof.KIRunA.lean ====
/-
  The kernel body at the first point (first pass, first row block): the support vectors `x W1` are stored over the
  whole support scratch, read back, multiplied by the adjacency row block, the bias added, and the result stored
  into rows [0, 400) of the hidden-activation scratch; the output block is not touched.
-/
import proofs.«151533_g13606456393732_cont_sun_m_1345_4_alg».proof.Proof.KIShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    Σ' (LS : List (View.Piece (Elt F) S10000x16 .f32)), { LH : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LS) ∗ (∃ f, ⌜arg10.view.read (Elt F) f = xh⌝ ∗ arg10.view.loc (c : Thread nD τ) ↦[arg10.view.set]{fullShare} arg10.view.writes (Elt F) f LH)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS]
    · iexists _; iexact HS
    iexists _; isplitr; · ipureintro; exact harg10.read_unread _
    iexact HH

end Cert.KernelIdeal.Gen

end
-- ==== Proof.KIRunB.lean ====
/-
  The kernel body at a later point of the first pass: the support vectors are read from their scratch, multiplied by
  the adjacency row block, the bias added, and the result stored into this point's 400 rows of the hidden-activation
  scratch; the output block is not touched.
-/
import proofs.«151533_g13606456393732_cont_sun_m_1345_4_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) (xh : Vec F S10000x16 .f32) :
    { LH : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xs ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xs ∗ (∃ f, ⌜arg10.view.read (Elt F) f = xh⌝ ∗ arg10.view.loc (c : Thread nD τ) ↦[arg10.view.set]{fullShare} arg10.view.writes (Elt F) f LH)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs; obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS]
    · iexists _; isplitr; · ipureintro; exact harg9.read_unread _
      iexact HS
    iexists _; isplitr; · ipureintro; exact harg10.read_unread _
    iexact HH

end Cert.KernelIdeal.Gen

end
-- ==== Proof.KIRunC.lean ====
/-
  The kernel body at the first point of the second pass: the hidden activations are read whole, rectified,
  multiplied by `W2` and stored over the whole support scratch; read back, they are multiplied by the adjacency row
  block, the bias added, and the result stored over the whole output block.
-/
import proofs.«151533_g13606456393732_cont_sun_m_1345_4_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    Σ' (L6 : List (View.Piece (Elt F) S400x16 .f32)), { LS : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS) ∗ owns (c : Thread nD τ) arg10 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, ⟨%fh, %hfh, HH⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS]
    · iexists _; iexact HS
    iexists _; isplitr; · ipureintro; exact harg10.read_unread _
    iexact HH

end Cert.KernelIdeal.Gen

end
-- ==== Proof.KIRunD.lean ====
/-
  The kernel body at a point of the second pass after its first (no support vectors recomputed): the adjacency row
  block times the support vectors plus the bias is stored over the whole output block; the support-vector scratch
  is only read, the hidden-activation scratch untouched.
-/
import proofs.«151533_g13606456393732_cont_sun_m_1345_4_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; isplitr; · ipureintro; exact harg9.read_unread _
    iexact HS

end Cert.KernelIdeal.Gen

end
-- ==== Proof.KIPieces.lean ====
/-
  What the four runs of the kernel body store, piece by piece, over named payloads: the support scratch receives
  `x W1` (first point) or `relu(h) W2` (first point of the second pass) over its whole extent; the hidden scratch
  receives, at a point of the first pass, rows [400 r, 400 r + 400) of `adj s + b1`; the output block receives, at a
  point of the second pass, its whole 400 rows of `adj s + b2`. A load of the whole support scratch after the whole
  store reads the stored payload.
-/
import proofs.«151533_g13606456393732_cont_sun_m_1345_4_alg».proof.Proof.KIRunD
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by
  funext a; fin_cases a <;> rfl

/-- The first point: the support scratch receives `x W1`, whole. -/
theorem runA_LS (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunA c i arg2 harg2 arg3 harg3 arg4 harg4 arg5 harg5 arg6 harg6 arg7 harg7 arg8 harg8 arg9 harg9 arg10 harg10 hc1 hc2 hc3 hc4 x0 x1 x2 x3 x4 x5 xh).1
      = [⟨Rect.unit (s := S10000x16) ![0, 0] S10000x16.size inb_S10000x16_S10000x16_0_0, k0_pay1 x0 x2⟩] := by
  unfold kernelRunA; dsimp only; sl_unfold_words
  simp only [View.readAt_eq_ld, harg2.read_unread, harg4.read_unread, View.ld_unit_zero (S := S10000x128) hz2,
    View.ld_unit_zero (S := S128x16) hz2]

/-- The first point: the hidden scratch receives the first row block of `adj (x W1) + b1`. -/
theorem runA_LH (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunA c i arg2 harg2 arg3 harg3 arg4 harg4 arg5 harg5 arg6 harg6 arg7 harg7 arg8 harg8 arg9 harg9 arg10 harg10 hc1 hc2 hc3 hc4 x0 x1 x2 x3 x4 x5 xh).2.1
      = [⟨Rect.unit (s := S10000x16) (k0_off1 i) S400x16.size (k0_off1_inb i hc3), k0_pay4 x1 (k0_pay1 x0 x2) x3⟩] := by
  unfold kernelRunA; dsimp only; sl_unfold_words
  simp only [View.readAt_eq_ld, harg2.read_unread, harg3.read_unread, harg4.read_unread, harg5.read_unread,
    View.ld_unit_zero (S := S10000x128) hz2, View.ld_unit_zero (S := S128x16) hz2, View.ld_unit_zero (S := S400x10000) hz2,
    View.ld_unit_zero (S := S1x16) hz2, View.readCov_unit_zero (S := S10000x16) _ hz2]

/-- A later point of the first pass: the hidden scratch receives this point's row block of `adj s + b1`. -/
theorem runB_LH (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : cond3 i) (hc4 : ¬cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) (xh : Vec F S10000x16 .f32) :
    (kernelRunB c i arg2 harg2 arg3 harg3 arg4 harg4 arg5 harg5 arg6 harg6 arg7 harg7 arg8 harg8 arg9 harg9 arg10 harg10 hc1 hc2 hc3 hc4 x0 x1 x2 x3 x4 x5 xs xh).1
      = [⟨Rect.unit (s := S10000x16) (k0_off1 i) S400x16.size (k0_off1_inb i hc3), k0_pay4 x1 xs x3⟩] := by
  unfold kernelRunB; dsimp only; sl_unfold_words
  simp only [View.readAt_eq_ld, harg3.read_unread, harg5.read_unread, harg9.read_unread,
    View.ld_unit_zero (S := S400x10000) hz2, View.ld_unit_zero (S := S1x16) hz2, View.ld_unit_zero (S := S10000x16) hz2]

/-- The first point of the second pass: the support scratch receives `relu(h) W2`, whole. -/
theorem runC_LS (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunC c i arg2 harg2 arg3 harg3 arg4 harg4 arg5 harg5 arg6 harg6 arg7 harg7 arg8 harg8 arg9 harg9 arg10 harg10 hc1 hc2 hc3 hc4 x0 x1 x2 x3 x4 x5 xh).2.1
      = [⟨Rect.unit (s := S10000x16) ![0, 0] S10000x16.size inb_S10000x16_S10000x16_0_0, k0_pay2 xh x4⟩] := by
  unfold kernelRunC; dsimp only; sl_unfold_words
  simp only [View.readAt_eq_ld, harg10.read_unread, harg6.read_unread, View.ld_unit_zero (S := S10000x16) hz2,
    View.ld_unit_zero (S := S16x16) hz2]

/-- The first point of the second pass: the output block receives `adj (relu(h) W2) + b2`, whole. -/
theorem runC_L6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xh : Vec F S10000x16 .f32) :
    (kernelRunC c i arg2 harg2 arg3 harg3 arg4 harg4 arg5 harg5 arg6 harg6 arg7 harg7 arg8 harg8 arg9 harg9 arg10 harg10 hc1 hc2 hc3 hc4 x0 x1 x2 x3 x4 x5 xh).1
      = [⟨Rect.unit (s := S400x16) ![0, 0] S400x16.size inb_S400x16_S400x16_0_0, k0_pay5 x1 (k0_pay2 xh x4) x5⟩] := by
  unfold kernelRunC; dsimp only; sl_unfold_words
  simp only [View.readAt_eq_ld, harg10.read_unread, harg6.read_unread, harg3.read_unread, harg7.read_unread,
    View.ld_unit_zero (S := S10000x16) hz2, View.ld_unit_zero (S := S16x16) hz2, View.ld_unit_zero (S := S400x10000) hz2,
    View.ld_unit_zero (S := S1x16) hz2, View.readCov_unit_zero (S := S10000x16) _ hz2]

/-- A later point of the second pass: the output block receives `adj s + b2`, whole. -/
theorem runD_L6 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (hc1 : ¬cond1 i) (hc2 : ¬cond2 i) (hc3 : ¬cond3 i) (hc4 : cond4 i)
    (x0 : Vec F S10000x128 .f32) (x1 : Vec F S400x10000 .f32) (x2 : Vec F S128x16 .f32) (x3 : Vec F S1x16 .f32) (x4 : Vec F S16x16 .f32) (x5 : Vec F S1x16 .f32) (xs : Vec F S10000x16 .f32) :
    (kernelRunD c i arg2 harg2 arg3 harg3 arg4 harg4 arg5 harg5 arg6 harg6 arg7 harg7 arg8 harg8 arg9 harg9 arg10 harg10 hc1 hc2 hc3 hc4 x0 x1 x2 x3 x4 x5 xs).1
      = [⟨Rect.unit (s := S400x16) ![0, 0] S400x16.size inb_S400x16_S400x16_0_0, k0_pay5 x1 xs x5⟩] := by
  unfold kernelRunD; dsimp only; sl_unfold_words
  simp only [View.readAt_eq_ld, harg3.read_unread, harg7.read_unread, harg9.read_unread,
    View.ld_unit_zero (S := S400x10000) hz2, View.ld_unit_zero (S := S1x16) hz2, View.ld_unit_zero (S := S10000x16) hz2]

end Cert.KernelIdeal.Gen

end
-- ==== Proof.KISpec.lean ====
/-
  What the two-layer graph convolution holds in its buffers, point by point, and the pipeline's proof data.
  The grid is 2 passes x 25 row blocks of 400 rows. The support scratch holds `s1 = x W1` through the first pass and
  `s2 = relu(h) W2` through the second; the hidden scratch holds, after the first pass's point r, rows [0, 400 (r + 1))
  of `h = adj s1 + b1` (row block r is the adjacency row block r times s1, plus the bias row); the output block at
  point (1, r) is the adjacency row block r times s2, plus the bias row. None of it is a recursion over the points:
  each is a closed term of the input blocks.
-/
import proofs.«151533_g13606456393732_cont_sun_m_1345_4_alg».proof.Proof.KIPieces
import Idealize.ShloMosaic.Lib.ValueIdx
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Grid point number `n`. -/
abbrev pt (n : ℕ) (h : n < 50) : Fin cfg0.N := ⟨n, lt_of_lt_of_eq h N50.symm⟩

/-! ## The input blocks at a point, at their literal types -/

abbrev xB (c : Dev nD) (t : Fin cfg0.N) : Vec F S10000x128 .f32 := iblk m c 0 t
abbrev aB (c : Dev nD) (t : Fin cfg0.N) : Vec F S400x10000 .f32 := iblk m c 1 t
abbrev w1B (c : Dev nD) (t : Fin cfg0.N) : Vec F S128x16 .f32 := iblk m c 2 t
abbrev b1B (c : Dev nD) (t : Fin cfg0.N) : Vec F S1x16 .f32 := iblk m c 3 t
abbrev w2B (c : Dev nD) (t : Fin cfg0.N) : Vec F S16x16 .f32 := iblk m c 4 t
abbrev b2B (c : Dev nD) (t : Fin cfg0.N) : Vec F S1x16 .f32 := iblk m c 5 t

/-! ## The buffers' contents -/

/-- The layer-1 support vectors `x W1`. -/
def sup1 (c : Dev nD) : Vec F S10000x16 .f32 := k0_pay1 (xB m c (pt 0 (by omega))) (w1B m c (pt 0 (by omega)))

/-- The first-pass point whose row block holds row `y 0`. -/
def rowPt (y : S10000x16.Idx) : Fin cfg0.N :=
  pt ((y 0).val / 400) (by have h : (y 0).val < 10000 := (y 0).isLt; omega)

/-- The position of index `y` inside its 400-row block. -/
def rowLoc (y : S10000x16.Idx) : S400x16.Idx :=
  ValueIdx.ix2 (⟨(y 0).val % 400, Nat.mod_lt _ (by omega)⟩ : Fin 400) (⟨(y 1).val, (y 1).isLt⟩ : Fin 16)

/-- The hidden activations `adj (x W1) + b1`, row block by row block. -/
def hid (c : Dev nD) : Vec F S10000x16 .f32 :=
  fun y => k0_pay4 (aB m c (rowPt y)) (sup1 m c) (b1B m c (rowPt y)) (rowLoc y)

/-- The layer-2 support vectors `relu(h) W2`. -/
def sup2 (c : Dev nD) : Vec F S10000x16 .f32 := k0_pay2 (hid m c) (w2B m c (pt 25 (by omega)))

/-- The output block of a second-pass point: its adjacency row block times `relu(h) W2`, plus the bias row. -/
def outB (c : Dev nD) (t : Fin cfg0.N) : Vec F S400x16 .f32 := k0_pay5 (aB m c t) (sup2 m c) (b2B m c t)

/-! ## The region invariant -/

/-- Before position `n`: nothing known before the first point; through the first pass the support scratch at `x W1`
    and the hidden scratch at the hidden activations on the rows stored so far; through the second pass the support
    scratch at `relu(h) W2`. The generator register at some state throughout. -/
def PhiS (c : Dev nD) : (n : ℕ) → n ≤ cfg0.N → sProp 𝕄
  | 0, _ => Pipeline.ΦA spec0 c
  | n + 1, _ =>
    if n + 1 ≤ 25 then
      iprop(iprop(owns (c : Thread nD τ) scS fullShare (sup1 m c)
        ∗ (∃ h : Vec F S10000x16 .f32, ⌜∀ y : S10000x16.Idx, (y 0).val < 400 * (n + 1) → h y = hid m c y⌝ ∗ owns (c : Thread nD τ) scH fullShare h))
        ∗ (∃ r, prngReg c r))
    else
      iprop(iprop(owns (c : Thread nD τ) scS fullShare (sup2 m c) ∗ (∃ h, owns (c : Thread nD τ) scH fullShare h))
        ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (h1 : 1 ≤ n) (h2 : n ≤ 25) :
    PhiS m c n h = iprop(iprop(owns (c : Thread nD τ) scS fullShare (sup1 m c)
        ∗ (∃ h : Vec F S10000x16 .f32, ⌜∀ y : S10000x16.Idx, (y 0).val < 400 * n → h y = hid m c y⌝ ∗ owns (c : Thread nD τ) scH fullShare h))
        ∗ (∃ r, prngReg c r)) := by
  cases n with
  | zero => omega
  | succ n => exact if_pos h2

theorem PhiS_hi (c : Dev nD) (n : ℕ) (h : n ≤ cfg0.N) (h2 : 25 < n) :
    PhiS m c n h = iprop(iprop(owns (c : Thread nD τ) scS fullShare (sup2 m c) ∗ (∃ h, owns (c : Thread nD τ) scH fullShare h))
        ∗ (∃ r, prngReg c r)) := by
  cases n with
  | zero => omega
  | succ n => exact if_neg (by omega)

/-! ## The pipeline's proof data -/

/-- The arrays as the region finds them; after the body each input's buffer at its block and the output's at the
    point's output block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outB m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Gen

end
-- ==== Proof.KIBody.lean ====
/-
  The body obligation of the graph-convolution kernel at every grid point, the frame run and the frame.
  At the first point the support scratch is filled with `x W1` and rows [0, 400) of the hidden scratch stored; at a
  later point of the first pass the next 400 rows are stored, the rows below kept; at the first point of the second
  pass the hidden activations, now complete, are turned into `relu(h) W2` and the first output block stored; at a
  later point the next output block. The output window is idle through the first pass and handed back untouched.
-/
import proofs.«151533_g13606456393732_cont_sun_m_1345_4_alg».proof.Proof.KISpec

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Storing a first-pass point's row block keeps the rows below it and adds its own 400 rows of the hidden
    activations. -/
theorem hid_step (c : Dev nD) (t : Fin cfg0.N) (ht : t.val < 25) (v : View sig .tc .vmem S10000x16 .f32)
    (f : v.ty.Contents (Elt F)) (xh : Vec F S10000x16 .f32) (hf : v.read (Elt F) f = xh)
    (inb : ∀ a, (k0_off1 (grid0.coords t)) a + S400x16.size a ≤ S10000x16.size a)
    (hprev : ∀ y : S10000x16.Idx, (y 0).val < 400 * t.val → xh y = hid m c y)
    (y : S10000x16.Idx) (hy : (y 0).val < 400 * (t.val + 1)) :
    v.read (Elt F) (v.writes (Elt F) f [⟨Rect.unit (s := S10000x16) (k0_off1 (grid0.coords t)) S400x16.size inb,
        k0_pay4 (aB m c t) (sup1 m c) (b1B m c t)⟩]) y = hid m c y := by
  by_cases hlo : (y 0).val < 400 * t.val
  · rw [View.read_writes_cons_rows_of_not_mem v f inb _ [] y (off1_eq t ht) rfl (Or.inl hlo)]
    rw [View.writes_nil, hf]; exact hprev y hlo
  · have hrow : (y 0).val / 400 = t.val := by omega
    rw [View.read_writes_cons_rows_of_mem v f inb _ [] y (rowLoc y) (off1_eq t ht)
      (by show (y 0).val = 400 * t.val + (y 0).val % 400; omega) rfl]
    have hpt : rowPt y = t := Fin.ext hrow
    unfold hid; rw [hpt]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl]
  have hN : t.val < 50 := lt_of_lt_of_eq t.isLt N50
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [PhiS_castSucc m c t]
  by_cases hlt : t.val < 25
  · -- the first pass: the output window idle
    rw [Dat.leavesExact_idle (dats m 0 c) 6 t (idleAt6 t hlt) (noFlush6 t hlt)]
    have c2 : ¬cond2 (grid0.coords t) := fun h => by have := (hcond2 t).mp h; omega
    have c3 : cond3 (grid0.coords t) := (hcond3 t).mpr hlt
    have c4 : ¬cond4 (grid0.coords t) := fun h => by have := (hcond4 t).mp h; omega
    by_cases h0 : t.val = 0
    · -- the first point
      have c1 : cond1 (grid0.coords t) := (hcond1 t).mpr h0
      rw [PhiS_zero m c _ _ h0, PhiA0_eq, PhiS_lo m c (t.val + 1) t.isLt (by omega) (by omega)]
      iintro ⟨⟨⟨⟨%ds, HS⟩, ⟨%dh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) dh).2.2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      isplitl [HH]; · iexact HH
      iintro ⟨H0, H1, H2, H3, H4, H5, ⟨%fs, HS⟩, ⟨%fh, %hfh, HH⟩⟩
      isplitl [HS HH Hg]
      · isplitr [Hg]
        swap; · iexact Hg
        isplitl [HS]
        · unfold owns; iexists _; isplitr
          swap; · iexact HS
          ipureintro
          rw [runA_LS, View.read_writes_eq_canon _ _ _ (fun y => ⟨_, List.mem_singleton_self _, View.mem_set_unit_zero hz2 inb_S10000x16_S10000x16_0_0 y⟩),
            View.canon_unit_zero hz2]
          have ht0 : t = pt 0 (by omega) := Fin.ext h0
          unfold sup1; rw [← ht0]
        · iexists _; isplitr
          swap
          · unfold owns; iexists _; isplitr
            swap; · iexact HH
            ipureintro; rfl
          ipureintro
          intro y hy
          rw [runA_LH]
          have hs1 : k0_pay1 (iblk m c 0 t) (iblk m c 2 t) = sup1 m c := by
            have ht0 : t = pt 0 (by omega) := Fin.ext h0
            unfold sup1; rw [← ht0]
          rw [hs1]
          exact hid_step m c t hlt _ fh dh hfh _ (fun y hy' => by omega) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of the first pass
      have c1 : ¬cond1 (grid0.coords t) := fun h => h0 ((hcond1 t).mp h)
      rw [PhiS_lo m c t.val (Nat.le_of_lt t.isLt) (by omega) (by omega), PhiS_lo m c (t.val + 1) t.isLt (by omega) (by omega)]
      iintro ⟨⟨⟨HS, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (sup1 m c) dh).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HH]; · iexact HH
      iintro ⟨H0, H1, H2, H3, H4, H5, HS, ⟨%fh, %hfh, HH⟩⟩
      isplitl [HS HH Hg]
      · isplitr [Hg]
        swap; · iexact Hg
        isplitl [HS]; · iexact HS
        iexists _; isplitr
        swap
        · unfold owns; iexists _; isplitr
          swap; · iexact HH
          ipureintro; rfl
        ipureintro
        intro y hy
        rw [runB_LH]
        exact hid_step m c t hlt _ fh dh hfh _ hdh y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second pass: the output block stored whole
    have hge : 25 ≤ t.val := by omega
    rw [show (dats m 0 c).leavesExact 6 t = owns (c : Thread nD τ) (ms6 t) fullShare ((dats m 0 c).after 6 t) from by
      unfold Dat.leavesExact; rw [liveAt6 t hge], after6]
    have c1 : ¬cond1 (grid0.coords t) := fun h => by have := (hcond1 t).mp h; omega
    have c3 : ¬cond3 (grid0.coords t) := fun h => by have := (hcond3 t).mp h; omega
    have c4 : cond4 (grid0.coords t) := (hcond4 t).mpr hge
    rw [PhiS_hi m c (t.val + 1) t.isLt (by omega)]
    by_cases h25 : t.val = 25
    · -- its first point
      have c2 : cond2 (grid0.coords t) := (hcond2 t).mpr h25
      rw [PhiS_lo m c t.val (Nat.le_of_lt t.isLt) (by omega) (by omega)]
      iintro ⟨⟨⟨HS, ⟨%dh, %hdh, HH⟩⟩, Hg⟩, Ho, ⟨%d0, H0⟩, ⟨%d1, H1⟩, ⟨%d2, H2⟩, ⟨%d3, H3⟩, ⟨%d4, H4⟩, ⟨%d5, H5⟩, ⟨%d6, H6⟩⟩
      have hdh' : dh = hid m c := funext fun y => hdh y (by have h : (y 0).val < 10000 := (y 0).isLt; omega)
      subst hdh'
      iapply ((kernelRunC c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (hid m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      isplitl [HH]; · iexact HH
      iintro ⟨H0, H1, H2, H3, H4, H5, ⟨%f6, H6⟩, ⟨%fs, HS⟩, HH⟩
      have hs2 : k0_pay2 (hid m c) (iblk m c 4 t) = sup2 m c := by
        have ht0 : t = pt 25 (by omega) := Fin.ext h25
        unfold sup2; rw [← ht0]
      isplitl [HS HH Hg]
      · isplitr [Hg]
        swap; · iexact Hg
        isplitl [HS]
        · unfold owns; iexists _; isplitr
          swap; · iexact HS
          ipureintro
          rw [runC_LS, View.read_writes_eq_canon _ _ _ (fun y => ⟨_, List.mem_singleton_self _, View.mem_set_unit_zero hz2 inb_S10000x16_S10000x16_0_0 y⟩),
            View.canon_unit_zero hz2]
          exact hs2
        · iexists _; iexact HH
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runC_L6, View.read_writes_eq_canon _ _ _ (fun y => ⟨_, List.mem_singleton_self _, View.mem_set_unit_zero hz2 inb_S400x16_S400x16_0_0 y⟩),
        View.canon_unit_zero hz2, hs2]
      rfl
    · -- a later point
      have c2 : ¬cond2 (grid0.coords t) := fun h => h25 ((hcond2 t).mp h)
      rw [PhiS_hi m c t.val (Nat.le_of_lt t.isLt) (by omega)]
      iintro ⟨⟨⟨HS, HH⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunD c (grid0.coords t) (ms0 t) (hs0 t) (ms1 t) (hs1 t) (ms2 t) (hs2 t) (ms3 t) (hs3 t) (ms4 t) (hs4 t) (ms5 t) (hs5 t) (ms6 t) (hs6 t) scS (Memref.isWhole_whole _) scH (Memref.isWhole_whole _) c1 c2 c3 c4
        (iblk m c 0 t) (iblk m c 1 t) (iblk m c 2 t) (iblk m c 3 t) (iblk m c 4 t) (iblk m c 5 t) (sup2 m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%f6, H6⟩, HS⟩
      isplitl [HS HH Hg]
      · isplitr [Hg]
        swap; · iexact Hg
        isplitl [HS]; · iexact HS
        iexact HH
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      rw [runD_L6, View.read_writes_eq_canon _ _ _ (fun y => ⟨_, List.mem_singleton_self _, View.mem_set_unit_zero hz2 inb_S400x16_S400x16_0_0 y⟩),
        View.canon_unit_zero hz2]
      rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last, N50]; omega), PhiA0_eq]
  iintro ⟨⟨HS, HH⟩, Hg⟩
  isplitr [Hg]
  swap; · iexact Hg
  isplitl [HS]
  · iexists _; iexact HS
  iexact HH

set_option backward.isDefEq.respectTransparency.types false in
/-- Every weakly fair execution of @main terminates, every array of the pipeline at what the library computes from the
    proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.KIAlg.lean ====
/-
  The arithmetic of the graph-convolution kernel's payloads at the extended reals, against the stages of the
  reference: a matrix product into a zero accumulator is the host's dot_general (the same sum over the contracted
  axis), so the support vectors `x W1` and `relu(h) W2` are the reference's, and a 400-row block of
  `adj s + b` is the reference's rows of the same product plus the broadcast bias.
-/
import proofs.«151533_g13606456393732_cont_sun_m_1345_4_alg».proof.Proof.Gen.KernelIdeal.Skeleton
import proofs.«151533_g13606456393732_cont_sun_m_1345_4_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Alg

open Idealize.ShloMosaic Idealize.ShloMosaic.TcCoe Idealize.SL.Sem
open Cert.KernelIdeal Cert.KernelIdeal.Gen
open Idealize.ShloMosaic.ValueIdx (ix1 ix2)

/-! The product xw: the operand indices of the contraction, axis by axis. -/
theorem lhs_xw_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_xw_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_xw_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_xw_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product into a zero accumulator read at an index: the sum over the contracted axis. -/
theorem mm_xw_apply (x : FVec Ideal S10000x128 .f32) (w : FVec Ideal S128x16 .f32) (i : S10000x16.Idx) :
    matmul (F := Ideal) dot_S10000x128_S128x16_S10000x16_1_0_0_1_n_n none x w (constant (F := Ideal) S10000x16 .f32 0x00000000#32) i
      = ∑ k : Fin 128, x (Cert.ReferenceIdeal.Read.lidx_main_v0 i k) * w (Cert.ReferenceIdeal.Read.ridx_main_v0 i k) := by
  show FloatOps.matmul dot_S10000x128_S128x16_S10000x16_1_0_0_1_n_n none x w (constant (F := Ideal) S10000x16 .f32 0x00000000#32) i = _
  rw [Ideal.matmul_constant_zero_apply, ← Equiv.sum_comp (ValueIdx.contrEquiv1 dot_S10000x128_S128x16_S10000x16_1_0_0_1_n_n 128 rfl rfl).symm]
  refine Finset.sum_congr rfl fun k _ => ?_
  have hk := ValueIdx.contrEquiv1_symm_val dot_S10000x128_S128x16_S10000x16_1_0_0_1_n_n 128 rfl rfl k
  have el : dot_S10000x128_S128x16_S10000x16_1_0_0_1_n_n.lhsIdx i ((ValueIdx.contrEquiv1 dot_S10000x128_S128x16_S10000x16_1_0_0_1_n_n 128 rfl rfl).symm k) = Cert.ReferenceIdeal.Read.lidx_main_v0 i k := funext fun a => Fin.ext (by
    match a with
    | ⟨0, _⟩ => exact lhs_xw_0 _ _
    | ⟨1, _⟩ => exact (lhs_xw_1 _ _).trans hk)
  have er : dot_S10000x128_S128x16_S10000x16_1_0_0_1_n_n.rhsIdx i ((ValueIdx.contrEquiv1 dot_S10000x128_S128x16_S10000x16_1_0_0_1_n_n 128 rfl rfl).symm k) = Cert.ReferenceIdeal.Read.ridx_main_v0 i k := funext fun a => Fin.ext (by
    match a with
    | ⟨0, _⟩ => exact (rhs_xw_0 _ _).trans hk
    | ⟨1, _⟩ => exact rhs_xw_1 _ _)
  rw [el, er]

/-! The product hw: the operand indices of the contraction, axis by axis. -/
theorem lhs_hw_0 (i : S10000x16.Idx) (q : dot_S10000x16_S16x16_S10000x16_1_0_0_1_n_n.contr.Idx) :
    (dot_S10000x16_S16x16_S10000x16_1_0_0_1_n_n.lhsIdx i q 0).val = (i 0).val := by
  unfold DotDims.lhsIdx
  rw [dif_neg (show ¬(0 : Fin S10000x16.rank) ∈ dot_S10000x16_S16x16_S10000x16_1_0_0_1_n_n.lhsBatch by decide), dif_pos (show (0 : Fin S10000x16.rank) ∈ dot_S10000x16_S16x16_S10000x16_1_0_0_1_n_n.lhsNonContracting by decide)]
  rfl
theorem lhs_hw_1 (i : S10000x16.Idx) (q : dot_S10000x16_S16x16_S10000x16_1_0_0_1_n_n.contr.Idx) :
    (dot_S10000x16_S16x16_S10000x16_1_0_0_1_n_n.lhsIdx i q 1).val = (q ⟨0, by decide⟩).val :=
  dot_S10000x16_S16x16_S10000x16_1_0_0_1_n_n.lhsIdx_val_of_single rfl i q
theorem rhs_hw_0 (i : S10000x16.Idx) (q : dot_S10000x16_S16x16_S10000x16_1_0_0_1_n_n.contr.Idx) :
    (dot_S10000x16_S16x16_S10000x16_1_0_0_1_n_n.rhsIdx i q 0).val = (q ⟨0, by decide⟩).val :=
  dot_S10000x16_S16x16_S10000x16_1_0_0_1_n_n.rhsIdx_val_of_single rfl i q
theorem rhs_hw_1 (i : S10000x16.Idx) (q : dot_S10000x16_S16x16_S10000x16_1_0_0_1_n_n.contr.Idx) :
    (dot_S10000x16_S16x16_S10000x16_1_0_0_1_n_n.rhsIdx i q 1).val = (i 1).val := by
  unfold DotDims.rhsIdx
  rw [dif_neg (show ¬(1 : Fin S16x16.rank) ∈ dot_S10000x16_S16x16_S10000x16_1_0_0_1_n_n.rhsBatch by decide), dif_pos (show (1 : Fin S16x16.rank) ∈ dot_S10000x16_S16x16_S10000x16_1_0_0_1_n_n.rhsNonContracting by decide)]
  rfl

/-- The product into a zero accumulator read at an index: the sum over the contracted axis. -/
theorem mm_hw_apply (x : FVec Ideal S10000x16 .f32) (w : FVec Ideal S16x16 .f32) (i : S10000x16.Idx) :
    matmul (F := Ideal) dot_S10000x16_S16x16_S10000x16_1_0_0_1_n_n none x w (constant (F := Ideal) S10000x16 .f32 0x00000000#32) i
      = ∑ k : Fin 16, x (Cert.ReferenceIdeal.Read.lidx_main_v6 i k) * w (Cert.ReferenceIdeal.Read.ridx_main_v6 i k) := by
  show FloatOps.matmul dot_S10000x16_S16x16_S10000x16_1_0_0_1_n_n none x w (constant (F := Ideal) S10000x16 .f32 0x00000000#32) i = _
  rw [Ideal.matmul_constant_zero_apply, ← Equiv.sum_comp (ValueIdx.contrEquiv1 dot_S10000x16_S16x16_S10000x16_1_0_0_1_n_n 16 rfl rfl).symm]
  refine Finset.sum_congr rfl fun k _ => ?_
  have hk := ValueIdx.contrEquiv1_symm_val dot_S10000x16_S16x16_S10000x16_1_0_0_1_n_n 16 rfl rfl k
  have el : dot_S10000x16_S16x16_S10000x16_1_0_0_1_n_n.lhsIdx i ((ValueIdx.contrEquiv1 dot_S10000x16_S16x16_S10000x16_1_0_0_1_n_n 16 rfl rfl).symm k) = Cert.ReferenceIdeal.Read.lidx_main_v6 i k := funext fun a => Fin.ext (by
    match a with
    | ⟨0, _⟩ => exact lhs_hw_0 _ _
    | ⟨1, _⟩ => exact (lhs_hw_1 _ _).trans hk)
  have er : dot_S10000x16_S16x16_S10000x16_1_0_0_1_n_n.rhsIdx i ((ValueIdx.contrEquiv1 dot_S10000x16_S16x16_S10000x16_1_0_0_1_n_n 16 rfl rfl).symm k) = Cert.ReferenceIdeal.Read.ridx_main_v6 i k := funext fun a => Fin.ext (by
    match a with
    | ⟨0, _⟩ => exact (rhs_hw_0 _ _).trans hk
    | ⟨1, _⟩ => exact rhs_hw_1 _ _)
  rw [el, er]

/-! The product blk: the operand indices of the contraction, axis by axis. -/
theorem lhs_blk_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_blk_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_blk_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_blk_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The operand indices of the row-block product at output index `i` and contraction index `k`. -/
abbrev lidx_blk (i : S400x16.Idx) (k : Fin 10000) : S400x10000.Idx := fun a => match a with
  | ⟨0, _⟩ => ⟨(i 0).val, (i 0).isLt⟩
  | ⟨1, _⟩ => ⟨k.val, k.isLt⟩
abbrev ridx_blk (i : S400x16.Idx) (k : Fin 10000) : S10000x16.Idx := fun a => match a with
  | ⟨0, _⟩ => ⟨k.val, k.isLt⟩
  | ⟨1, _⟩ => ⟨(i 1).val, (i 1).isLt⟩

/-- The product into a zero accumulator read at an index: the sum over the contracted axis. -/
theorem mm_blk_apply (x : FVec Ideal S400x10000 .f32) (w : FVec Ideal S10000x16 .f32) (i : S400x16.Idx) :
    matmul (F := Ideal) dot_S400x10000_S10000x16_S400x16_1_0_0_1_n_n none x w (constant (F := Ideal) S400x16 .f32 0x00000000#32) i
      = ∑ k : Fin 10000, x (lidx_blk i k) * w (ridx_blk i k) := by
  show FloatOps.matmul dot_S400x10000_S10000x16_S400x16_1_0_0_1_n_n none x w (constant (F := Ideal) S400x16 .f32 0x00000000#32) i = _
  rw [Ideal.matmul_constant_zero_apply, ← Equiv.sum_comp (ValueIdx.contrEquiv1 dot_S400x10000_S10000x16_S400x16_1_0_0_1_n_n 10000 rfl rfl).symm]
  refine Finset.sum_congr rfl fun k _ => ?_
  have hk := ValueIdx.contrEquiv1_symm_val dot_S400x10000_S10000x16_S400x16_1_0_0_1_n_n 10000 rfl rfl k
  have el : dot_S400x10000_S10000x16_S400x16_1_0_0_1_n_n.lhsIdx i ((ValueIdx.contrEquiv1 dot_S400x10000_S10000x16_S400x16_1_0_0_1_n_n 10000 rfl rfl).symm k) = lidx_blk i k := funext fun a => Fin.ext (by
    match a with
    | ⟨0, _⟩ => exact lhs_blk_0 _ _
    | ⟨1, _⟩ => exact (lhs_blk_1 _ _).trans hk)
  have er : dot_S400x10000_S10000x16_S400x16_1_0_0_1_n_n.rhsIdx i ((ValueIdx.contrEquiv1 dot_S400x10000_S10000x16_S400x16_1_0_0_1_n_n 10000 rfl rfl).symm k) = ridx_blk i k := funext fun a => Fin.ext (by
    match a with
    | ⟨0, _⟩ => exact (rhs_blk_0 _ _).trans hk
    | ⟨1, _⟩ => exact rhs_blk_1 _ _)
  rw [el, er]

/-- The layer-1 support vectors: the kernel's product into a zero accumulator is the reference's dot_general. -/
theorem pay1_eq (x : Vec Ideal S10000x128 .f32) (w1 : Vec Ideal S128x16 .f32) :
    k0_pay1 (F := Ideal) x w1 = Cert.ReferenceIdeal.Read.val_main_v0 (F := Ideal) x w1 := by
  funext i
  rw [Cert.ReferenceIdeal.Read.val_main_v0_apply]
  unfold k0_pay1
  rw [shapeCast_self]
  exact mm_xw_apply x w1 i

/-- The rectified activations: the maximum with the kernel's broadcast zero is the reference's relu stage. -/
theorem relu_eq (x : Vec Ideal S10000x128 .f32) (adj : Vec Ideal S10000x10000 .f32) (w1 : Vec Ideal S128x16 .f32)
    (b1 : Vec Ideal S16 .f32) :
    maximumf (F := Ideal) (Cert.ReferenceIdeal.Read.val_main_v4 (F := Ideal) x adj w1 b1)
        (broadcast S10000x16 (Scalar.ofBits (F := Ideal) .f32 0x00000000#32))
      = Cert.ReferenceIdeal.Read.val_main_v5 (F := Ideal) x adj w1 b1 := by
  funext i
  rw [Cert.ReferenceIdeal.Read.val_main_v5_apply, Cert.ReferenceIdeal.Read.val_main_call0_v0_apply,
    Cert.ReferenceIdeal.Read.val_main_call0_cst_apply]
  rfl

/-- The layer-2 support vectors, from hidden activations that are the reference's `adj (x W1) + b1`. -/
theorem pay2_eq (x : Vec Ideal S10000x128 .f32) (adj : Vec Ideal S10000x10000 .f32) (w1 : Vec Ideal S128x16 .f32)
    (b1 : Vec Ideal S16 .f32) (w2 : Vec Ideal S16x16 .f32) :
    k0_pay2 (F := Ideal) (Cert.ReferenceIdeal.Read.val_main_v4 (F := Ideal) x adj w1 b1) w2
      = Cert.ReferenceIdeal.Read.val_main_v6 (F := Ideal) x adj w1 b1 w2 := by
  funext i
  rw [Cert.ReferenceIdeal.Read.val_main_v6_apply]
  unfold k0_pay2
  rw [shapeCast_self, relu_eq]
  exact mm_hw_apply _ w2 i

/-- The row-block product at (p, j): the sum over k of the block's (p, k) times the support vectors' (k, j). -/
theorem pay3_apply (a : Vec Ideal S400x10000 .f32) (s : Vec Ideal S10000x16 .f32) (p : Fin 400) (j : Fin 16) :
    k0_pay3 (F := Ideal) a s (ix2 p j) = ∑ k : Fin 10000, a (ix2 p k) * s (ix2 k j) := by
  unfold k0_pay3
  rw [mm_blk_apply]
  refine Finset.sum_congr rfl fun k _ => ?_
  have el : lidx_blk (ix2 p j) k = ix2 p k := funext fun d => Fin.ext (by match d with | ⟨0, _⟩ => rfl | ⟨1, _⟩ => rfl)
  have er : ridx_blk (ix2 p j) k = ix2 k j := funext fun d => Fin.ext (by match d with | ⟨0, _⟩ => rfl | ⟨1, _⟩ => rfl)
  rw [el, er]

/-- A row block of the hidden activations: for an adjacency block `a` holding rows [o, o + 400) of `adj` and a
    bias row `b` holding `b1`, the stored slice at (p, j) is the reference's `adj (x W1) + b1` at (o + p, j). -/
theorem pay4_apply (x : Vec Ideal S10000x128 .f32) (adj : Vec Ideal S10000x10000 .f32) (w1 : Vec Ideal S128x16 .f32)
    (b1 : Vec Ideal S16 .f32) (a : Vec Ideal S400x10000 .f32) (b : Vec Ideal S1x16 .f32) (o : Nat)
    (ha : ∀ (p : Fin 400) (k : Fin 10000) (h : o + p.val < 10000), a (ix2 p k) = adj (ix2 ⟨o + p.val, h⟩ k))
    (hb : ∀ j : Fin 16, b (ix2 (0 : Fin 1) j) = b1 (ix1 j))
    (p : Fin 400) (j : Fin 16) (h : o + p.val < 10000) :
    k0_pay4 (F := Ideal) a (Cert.ReferenceIdeal.Read.val_main_v0 (F := Ideal) x w1) b (ix2 p j)
      = Cert.ReferenceIdeal.Read.val_main_v4 (F := Ideal) x adj w1 b1 (ix2 ⟨o + p.val, h⟩ j) := by
  unfold k0_pay4
  rw [shapeCast_self, shapeCast_self, ValueIdx.addf_apply, pay3_apply, ValueIdx.broadcastTo_1b_ab_apply, hb j]
  rw [Cert.ReferenceIdeal.Read.val_main_v4_apply, Cert.ReferenceIdeal.Read.val_main_v1_apply,
    Cert.ReferenceIdeal.Read.val_main_v3_apply, Cert.ReferenceIdeal.Read.val_main_v2_apply]
  refine congrArg₂ (· + ·) (Finset.sum_congr rfl fun k _ => ?_) (congrArg b1 ?_)
  · rw [ha p k h]
    refine congrArg₂ (· * ·) (congrArg adj ?_) (congrArg _ ?_)
    · exact funext fun d => Fin.ext (by match d with | ⟨0, _⟩ => rfl | ⟨1, _⟩ => rfl)
    · exact funext fun d => Fin.ext (by match d with | ⟨0, _⟩ => rfl | ⟨1, _⟩ => rfl)
  · exact funext fun d => Fin.ext (by match d with | ⟨0, _⟩ => rfl)

/-- A row block of the output: the same for the second layer. -/
theorem pay5_apply (x : Vec Ideal S10000x128 .f32) (adj : Vec Ideal S10000x10000 .f32) (w1 : Vec Ideal S128x16 .f32)
    (b1 : Vec Ideal S16 .f32) (w2 : Vec Ideal S16x16 .f32) (b2 : Vec Ideal S16 .f32)
    (a : Vec Ideal S400x10000 .f32) (b : Vec Ideal S1x16 .f32) (o : Nat)
    (ha : ∀ (p : Fin 400) (k : Fin 10000) (h : o + p.val < 10000), a (ix2 p k) = adj (ix2 ⟨o + p.val, h⟩ k))
    (hb : ∀ j : Fin 16, b (ix2 (0 : Fin 1) j) = b2 (ix1 j))
    (p : Fin 400) (j : Fin 16) (h : o + p.val < 10000) :
    k0_pay5 (F := Ideal) a (Cert.ReferenceIdeal.Read.val_main_v6 (F := Ideal) x adj w1 b1 w2) b (ix2 p j)
      = Cert.ReferenceIdeal.Read.val_main_v10 (F := Ideal) x adj w1 b1 w2 b2 (ix2 ⟨o + p.val, h⟩ j) := by
  unfold k0_pay5
  rw [shapeCast_self, ValueIdx.addf_apply, pay3_apply, ValueIdx.broadcastTo_1b_ab_apply, hb j]
  rw [Cert.ReferenceIdeal.Read.val_main_v10_apply, Cert.ReferenceIdeal.Read.val_main_v7_apply,
    Cert.ReferenceIdeal.Read.val_main_v9_apply, Cert.ReferenceIdeal.Read.val_main_v8_apply]
  refine congrArg₂ (· + ·) (Finset.sum_congr rfl fun k _ => ?_) (congrArg b2 ?_)
  · rw [ha p k h]
    refine congrArg₂ (· * ·) (congrArg adj ?_) (congrArg _ ?_)
    · exact funext fun d => Fin.ext (by match d with | ⟨0, _⟩ => rfl | ⟨1, _⟩ => rfl)
    · exact funext fun d => Fin.ext (by match d with | ⟨0, _⟩ => rfl | ⟨1, _⟩ => rfl)
  · exact funext fun d => Fin.ext (by match d with | ⟨0, _⟩ => rfl)

end Cert.KernelIdeal.Alg

end
-- ==== Proof.KIValue.lean ====
/-
  The value of the graph-convolution kernel at the extended reals: after the run the result array holds, index by
  index, the reference's `adj (relu(adj (x W1) + b1) W2) + b2`. Row block r of the result is written back once, at the
  second pass's point r, from the output block `adj_r s2 + b2`; the blocks tile the array.
-/
import proofs.«151533_g13606456393732_cont_sun_m_1345_4_alg».proof.Proof.KISpec
import proofs.«151533_g13606456393732_cont_sun_m_1345_4_alg».proof.Proof.KIAlg
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.GcnValue

open Idealize.ShloMosaic Idealize.ShloMosaic.TcCoe Idealize.SL.Sem
open Cert.KernelIdeal Cert.KernelIdeal.Gen
open Idealize.ShloMosaic.Pipeline (Dat)
open Idealize.ShloMosaic.ValueIdx (ix1 ix2)

variable (m : (ℓ : Loc nD τ sig) → Buf (Elt Ideal) ℓ)

/-- The reference's result, as a function of the kernel's six argument arrays as launched. -/
def G (c : Dev nD) : Vec Ideal S10000x16 .f32 :=
  Cert.ReferenceIdeal.Read.val_main_v10 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-! ## The index maps, decided over the 50 grid points -/

/-- The whole-array windows sit at block (0, 0) at every point. -/
theorem idx_x : ∀ t : Fin cfg0.N, win0_0.index t (0 : Fin 2) = 0 ∧ win0_0.index t (1 : Fin 2) = 0 :=
  (by decide +kernel : ∀ t : Fin grid0.N, _)
theorem idx_w1 : ∀ t : Fin cfg0.N, win0_2.index t (0 : Fin 2) = 0 ∧ win0_2.index t (1 : Fin 2) = 0 :=
  (by decide +kernel : ∀ t : Fin grid0.N, _)
theorem idx_b1 : ∀ t : Fin cfg0.N, win0_3.index t (0 : Fin 2) = 0 ∧ win0_3.index t (1 : Fin 2) = 0 :=
  (by decide +kernel : ∀ t : Fin grid0.N, _)
theorem idx_w2 : ∀ t : Fin cfg0.N, win0_4.index t (0 : Fin 2) = 0 ∧ win0_4.index t (1 : Fin 2) = 0 :=
  (by decide +kernel : ∀ t : Fin grid0.N, _)
theorem idx_b2 : ∀ t : Fin cfg0.N, win0_5.index t (0 : Fin 2) = 0 ∧ win0_5.index t (1 : Fin 2) = 0 :=
  (by decide +kernel : ∀ t : Fin grid0.N, _)
/-- The adjacency window sits at row block `t mod 25` in both passes. -/
theorem idx_adj : ∀ t : Fin cfg0.N, win0_1.index t (0 : Fin 2) = t.val % 25 ∧ win0_1.index t (1 : Fin 2) = 0 :=
  (by decide +kernel : ∀ t : Fin grid0.N, _)
/-- In the second pass the output window sits at row block `t - 25`. -/
theorem idx_out : ∀ t : Fin cfg0.N, 25 ≤ t.val → win0_6.index t (0 : Fin 2) = t.val - 25 ∧ win0_6.index t (1 : Fin 2) = 0 :=
  (by decide +kernel : ∀ t : Fin grid0.N, _)

/-! ## The input blocks as the argument arrays -/

/-- The feature block is the whole feature array. -/
theorem xB_eq (c : Dev nD) (t : Fin cfg0.N) : xB m c t = (V m c main_arg0 : S10000x128.Idx → Elt Ideal .f32) := by
  funext y
  unfold xB iblk
  rw [View.read_apply]
  show V m c main_arg0 _ = V m c main_arg0 y
  congr 1
  funext a
  apply Fin.ext
  match a with
  | ⟨0, _⟩ => show win0_0.index t (0 : Fin 2) * 10000 + 1 * (y 0).val = (y 0).val; rw [(idx_x t).1]; omega
  | ⟨1, _⟩ => show win0_0.index t (1 : Fin 2) * 128 + 1 * (y 1).val = (y 1).val; rw [(idx_x t).2]; omega

/-- The layer-1 weight block is the whole weight array. -/
theorem w1B_eq (c : Dev nD) (t : Fin cfg0.N) : w1B m c t = (V m c main_arg2 : S128x16.Idx → Elt Ideal .f32) := by
  funext y
  unfold w1B iblk
  rw [View.read_apply]
  show V m c main_arg2 _ = V m c main_arg2 y
  congr 1
  funext a
  apply Fin.ext
  match a with
  | ⟨0, _⟩ => show win0_2.index t (0 : Fin 2) * 128 + 1 * (y 0).val = (y 0).val; rw [(idx_w1 t).1]; omega
  | ⟨1, _⟩ => show win0_2.index t (1 : Fin 2) * 16 + 1 * (y 1).val = (y 1).val; rw [(idx_w1 t).2]; omega

/-- The layer-2 weight block is the whole weight array. -/
theorem w2B_eq (c : Dev nD) (t : Fin cfg0.N) : w2B m c t = (V m c main_arg4 : S16x16.Idx → Elt Ideal .f32) := by
  funext y
  unfold w2B iblk
  rw [View.read_apply]
  show V m c main_arg4 _ = V m c main_arg4 y
  congr 1
  funext a
  apply Fin.ext
  match a with
  | ⟨0, _⟩ => show win0_4.index t (0 : Fin 2) * 16 + 1 * (y 0).val = (y 0).val; rw [(idx_w2 t).1]; omega
  | ⟨1, _⟩ => show win0_4.index t (1 : Fin 2) * 16 + 1 * (y 1).val = (y 1).val; rw [(idx_w2 t).2]; omega

/-- The layer-1 bias block is the whole reshaped bias row. -/
theorem b1B_eq (c : Dev nD) (t : Fin cfg0.N) : b1B m c t = (V m c main_call0_v0 : S1x16.Idx → Elt Ideal .f32) := by
  funext y
  unfold b1B iblk
  rw [View.read_apply]
  show V m c main_call0_v0 _ = V m c main_call0_v0 y
  congr 1
  funext a
  apply Fin.ext
  match a with
  | ⟨0, _⟩ => show win0_3.index t (0 : Fin 2) * 1 + 1 * (y 0).val = (y 0).val; rw [(idx_b1 t).1]; omega
  | ⟨1, _⟩ => show win0_3.index t (1 : Fin 2) * 16 + 1 * (y 1).val = (y 1).val; rw [(idx_b1 t).2]; omega

/-- The layer-2 bias block is the whole reshaped bias row. -/
theorem b2B_eq (c : Dev nD) (t : Fin cfg0.N) : b2B m c t = (V m c main_call0_v1 : S1x16.Idx → Elt Ideal .f32) := by
  funext y
  unfold b2B iblk
  rw [View.read_apply]
  show V m c main_call0_v1 _ = V m c main_call0_v1 y
  congr 1
  funext a
  apply Fin.ext
  match a with
  | ⟨0, _⟩ => show win0_5.index t (0 : Fin 2) * 1 + 1 * (y 0).val = (y 0).val; rw [(idx_b2 t).1]; omega
  | ⟨1, _⟩ => show win0_5.index t (1 : Fin 2) * 16 + 1 * (y 1).val = (y 1).val; rw [(idx_b2 t).2]; omega

/-- The adjacency block at point `t` holds rows [400 (t mod 25), 400 (t mod 25) + 400) of the adjacency array. -/
theorem aB_apply (c : Dev nD) (t : Fin cfg0.N) (y : S400x10000.Idx) (i : S10000x10000.Idx)
    (h0 : (i 0).val = 400 * (t.val % 25) + (y 0).val) (h1 : (i 1).val = (y 1).val) :
    aB m c t y = (V m c main_arg1 : S10000x10000.Idx → Elt Ideal .f32) i := by
  unfold aB iblk
  rw [View.read_apply]
  show V m c main_arg1 _ = V m c main_arg1 i
  congr 1
  funext a
  apply Fin.ext
  match a with
  | ⟨0, _⟩ => show win0_1.index t (0 : Fin 2) * 400 + 1 * (y 0).val = (i 0).val; rw [(idx_adj t).1, h0]; omega
  | ⟨1, _⟩ => show win0_1.index t (1 : Fin 2) * 10000 + 1 * (y 1).val = (i 1).val; rw [(idx_adj t).2, h1]; omega

/-! ## The two bias rows: the host reshapes a 16-vector to a [1, 16] row before the region -/

theorem V_b1 (c : Dev nD) : (V m c main_call0_v0 : S1x16.Idx → Elt Ideal .f32)
    = shapeCast S1x16 (m ((c.tc : Thread nD τ).loc main_arg3) : S16.Idx → Elt Ideal .f32) shapeCasts_S16_S1x16 := by
  dsimp only [Gen.V, Gen.hostOps0]; after_results; rfl

theorem V_b2 (c : Dev nD) : (V m c main_call0_v1 : S1x16.Idx → Elt Ideal .f32)
    = shapeCast S1x16 (m ((c.tc : Thread nD τ).loc main_arg5) : S16.Idx → Elt Ideal .f32) shapeCasts_S16_S1x16 := by
  dsimp only [Gen.V, Gen.hostOps0]; after_results; rfl

/-- The layer-1 bias block read at (0, j) is the bias vector at j. -/
theorem b1B_apply (c : Dev nD) (t : Fin cfg0.N) (j : Fin 16) :
    b1B m c t (ix2 (0 : Fin 1) j) = (m ((c.tc : Thread nD τ).loc main_arg3) : S16.Idx → Elt Ideal .f32) (ix1 j) := by
  rw [b1B_eq, V_b1]
  exact ValueIdx.shapeCast_a_1a_apply _ _ 0 j

/-- The layer-2 bias block read at (0, j) is the bias vector at j. -/
theorem b2B_apply (c : Dev nD) (t : Fin cfg0.N) (j : Fin 16) :
    b2B m c t (ix2 (0 : Fin 1) j) = (m ((c.tc : Thread nD τ).loc main_arg5) : S16.Idx → Elt Ideal .f32) (ix1 j) := by
  rw [b2B_eq, V_b2]
  exact ValueIdx.shapeCast_a_1a_apply _ _ 0 j

/-! ## The argument arrays as launched, at their literal types -/

abbrev X (c : Dev nD) : Vec Ideal S10000x128 .f32 := m ((c.tc : Thread nD τ).loc main_arg0)
abbrev ADJ (c : Dev nD) : Vec Ideal S10000x10000 .f32 := m ((c.tc : Thread nD τ).loc main_arg1)
abbrev W1 (c : Dev nD) : Vec Ideal S128x16 .f32 := m ((c.tc : Thread nD τ).loc main_arg2)
abbrev B1 (c : Dev nD) : Vec Ideal S16 .f32 := m ((c.tc : Thread nD τ).loc main_arg3)
abbrev W2 (c : Dev nD) : Vec Ideal S16x16 .f32 := m ((c.tc : Thread nD τ).loc main_arg4)
abbrev B2 (c : Dev nD) : Vec Ideal S16 .f32 := m ((c.tc : Thread nD τ).loc main_arg5)

theorem G_eq (c : Dev nD) : G m c = Cert.ReferenceIdeal.Read.val_main_v10 (F := Ideal) (X m c) (ADJ m c) (W1 m c) (B1 m c) (W2 m c) (B2 m c) := rfl

/-- The adjacency block at point `t`, against the adjacency array as launched, in the form the row-block lemmas take. -/
theorem aB_rows (c : Dev nD) (t : Fin cfg0.N) (o : Nat) (ho : o = 400 * (t.val % 25))
    (p : Fin 400) (k : Fin 10000) (h : o + p.val < 10000) :
    aB m c t (ix2 p k) = ADJ m c (ix2 ⟨o + p.val, h⟩ k) := by
  rw [aB_apply m c t (ix2 p k) (ix2 ⟨o + p.val, h⟩ k) (by show o + p.val = 400 * (t.val % 25) + p.val; rw [ho]) rfl, V_main_arg1]

/-! ## The buffers' contents against the reference's stages -/

/-- The support scratch of the first pass holds the reference's `x W1`. -/
theorem sup1_eq (c : Dev nD) : sup1 m c = Cert.ReferenceIdeal.Read.val_main_v0 (F := Ideal) (X m c) (W1 m c) := by
  unfold sup1
  rw [xB_eq, w1B_eq, V_main_arg0, V_main_arg2]
  exact Alg.pay1_eq _ _

/-- The hidden scratch's contents are the reference's `adj (x W1) + b1`: row y lies in row block y / 400, at
    position y mod 400 of it. -/
theorem hid_eq (c : Dev nD) : hid m c = Cert.ReferenceIdeal.Read.val_main_v4 (F := Ideal) (X m c) (ADJ m c) (W1 m c) (B1 m c) := by
  funext y
  have hy0 : (y 0).val < 10000 := (y 0).isLt
  have hlt : 400 * ((y 0).val / 400) + (⟨(y 0).val % 400, Nat.mod_lt _ (by omega)⟩ : Fin 400).val < 10000 := by
    show 400 * ((y 0).val / 400) + (y 0).val % 400 < 10000; omega
  have hpt : (rowPt y).val = (y 0).val / 400 := rfl
  have hrow : (ix2 (⟨400 * ((y 0).val / 400) + (⟨(y 0).val % 400, Nat.mod_lt _ (by omega)⟩ : Fin 400).val, hlt⟩ : Fin 10000)
      (⟨(y 1).val, (y 1).isLt⟩ : Fin 16) : S10000x16.Idx) = y := by
    funext a; apply Fin.ext
    match a with
    | ⟨0, _⟩ => show 400 * ((y 0).val / 400) + (y 0).val % 400 = (y 0).val; omega
    | ⟨1, _⟩ => rfl
  unfold hid
  rw [sup1_eq]
  have key := Alg.pay4_apply (X m c) (ADJ m c) (W1 m c) (B1 m c) (aB m c (rowPt y)) (b1B m c (rowPt y)) (400 * ((y 0).val / 400))
    (fun p k h => aB_rows m c (rowPt y) _ (by rw [hpt]; omega) p k h)
    (fun j => b1B_apply m c (rowPt y) j)
    (⟨(y 0).val % 400, Nat.mod_lt _ (by omega)⟩ : Fin 400) (⟨(y 1).val, (y 1).isLt⟩ : Fin 16) hlt
  rw [hrow] at key
  exact key

/-- The support scratch of the second pass holds the reference's `relu(h) W2`. -/
theorem sup2_eq (c : Dev nD) : sup2 m c = Cert.ReferenceIdeal.Read.val_main_v6 (F := Ideal) (X m c) (ADJ m c) (W1 m c) (B1 m c) (W2 m c) := by
  unfold sup2
  rw [hid_eq, w2B_eq, V_main_arg4]
  exact Alg.pay2_eq _ _ _ _ _

/-- The output block of the second pass's point `t` at (p, q) is the reference's result at (400 (t - 25) + p, q). -/
theorem outB_ix (c : Dev nD) (t : Fin cfg0.N) (ht : 25 ≤ t.val) (p : Fin 400) (q : Fin 16)
    (h : 400 * (t.val - 25) + p.val < 10000) :
    outB m c t (ix2 p q) = G m c (ix2 (⟨400 * (t.val - 25) + p.val, h⟩ : Fin 10000) q) := by
  have htN : t.val < 50 := lt_of_lt_of_eq t.isLt N50
  unfold outB
  rw [sup2_eq, G_eq]
  exact Alg.pay5_apply (X m c) (ADJ m c) (W1 m c) (B1 m c) (W2 m c) (B2 m c) (aB m c t) (b2B m c t) (400 * (t.val - 25))
    (fun p k h => aB_rows m c t _ (by omega) p k h)
    (fun j => b2B_apply m c t j) p q h

/-- The output block of the second pass's point `t` is rows [400 (t - 25), 400 (t - 25) + 400) of the reference's result. -/
theorem outB_apply (c : Dev nD) (t : Fin cfg0.N) (ht : 25 ≤ t.val) (y : S400x16.Idx) (i : S10000x16.Idx)
    (h0 : (i 0).val = 400 * (t.val - 25) + (y 0).val) (h1 : (i 1).val = (y 1).val) :
    outB m c t y = G m c i := by
  have htN : t.val < 50 := lt_of_lt_of_eq t.isLt N50
  have hy0 : (y 0).val < 400 := (y 0).isLt
  have hlt : 400 * (t.val - 25) + (⟨(y 0).val, hy0⟩ : Fin 400).val < 10000 := by
    show 400 * (t.val - 25) + (y 0).val < 10000; omega
  have ey : y = ix2 (⟨(y 0).val, hy0⟩ : Fin 400) (⟨(y 1).val, (y 1).isLt⟩ : Fin 16) := by
    funext a; apply Fin.ext
    match a with
    | ⟨0, _⟩ => rfl
    | ⟨1, _⟩ => rfl
  have ei : i = ix2 (⟨400 * (t.val - 25) + (⟨(y 0).val, hy0⟩ : Fin 400).val, hlt⟩ : Fin 10000) (⟨(y 1).val, (y 1).isLt⟩ : Fin 16) := by
    funext a; apply Fin.ext
    match a with
    | ⟨0, _⟩ => exact h0
    | ⟨1, _⟩ => exact h1
  exact (congrArg (outB m c t) ey).trans ((outB_ix m c t ht _ _ hlt).trans (congrArg (G m c) ei.symm))

/-! ## From the output blocks to the result array -/

/-- What a second-pass point writes back is its block of the reference's result. -/
theorem flushed_eq (c : Dev nD) (t : Fin cfg0.N) (hf : (cfg0.win 6).flush t = true) :
    (dats (F := Ideal) m 0 c).flushed 6 t = ((cfg0.win 6).blk t).view.read (Elt Ideal) (G m c) := by
  have ht : 25 ≤ t.val := by
    by_contra hlt
    rw [noFlush6 t (by omega)] at hf
    exact Bool.false_ne_true hf
  show (cfg0.win 6).cut (grid0.coords t) ((dats (F := Ideal) m 0 c).after 6 t) = _
  rw [after6]
  funext j
  rw [View.read_apply]
  refine outB_apply m c t ht _ _ ?_ ?_
  · show win0_6.index t (0 : Fin 2) * 400 + 1 * (j 0).val = 400 * (t.val - 25) + (j 0).val
    rw [(idx_out t ht).1]; omega
  · show win0_6.index t (1 : Fin 2) * 16 + 1 * (j 1).val = (j 1).val
    rw [(idx_out t ht).2]; omega

/-- An index of the result array is in point `t`'s block iff each coordinate is in the block's range on its axis. -/
theorem mem_blk (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0).slice (win0_6.rect t)).set ↔ _
  rw [View.set_slice_whole, Rect.mem_set_unit]
  exact Iff.rfl

/-- Every index of the result array lies in the block some second-pass point writes back: row r in that of
    point 25 + r / 400. -/
theorem cover (i : S10000x16.Idx) :
    ∃ t : Fin cfg0.N, (cfg0.win 6).flush t = true ∧ i ∈ ((cfg0.win 6).blk t).view.set := by
  have hi0 : (i 0).val < 10000 := (i 0).isLt
  have hi1 : (i 1).val < 16 := (i 1).isLt
  have hlt : 25 + (i 0).val / 400 < 50 := by omega
  have hT : (pt (25 + (i 0).val / 400) hlt).val = 25 + (i 0).val / 400 := rfl
  have hq : 25 ≤ (pt (25 + (i 0).val / 400) hlt).val := by rw [hT]; omega
  obtain ⟨e0, e1⟩ := idx_out (pt (25 + (i 0).val / 400) hlt) hq
  refine ⟨pt (25 + (i 0).val / 400) hlt, flush6 _ hq, ?_⟩
  rw [mem_blk]
  intro a
  match a with
  | ⟨0, _⟩ =>
    show win0_6.index (pt (25 + (i 0).val / 400) hlt) (0 : Fin 2) * 400 ≤ (i 0).val
      ∧ (i 0).val < win0_6.index (pt (25 + (i 0).val / 400) hlt) (0 : Fin 2) * 400 + 400
    rw [e0, hT]; omega
  | ⟨1, _⟩ =>
    show win0_6.index (pt (25 + (i 0).val / 400) hlt) (1 : Fin 2) * 16 ≤ (i 1).val
      ∧ (i 1).val < win0_6.index (pt (25 + (i 0).val / 400) hlt) (1 : Fin 2) * 16 + 16
    rw [e1]; omega

/-- After every write-back the result array holds the reference's result. -/
theorem final (c : Dev nD) : (dats (F := Ideal) m 0 c).arrAt 6 cfg0.N = G m c :=
  (dats (F := Ideal) m 0 c).arrAt_eq_of_cover 6 (G m c) (fun t hf => flushed_eq m c t hf) cover

end Cert.KernelIdeal.GcnValue

end
-- ==== Proof.lean ====
/-
  The certificate of a two-layer graph convolution over a dense adjacency,
      out = adj (relu(adj (x W1) + b1) W2) + b2,
  computed by ONE fused kernel on a grid of 2 passes x 25 blocks of 400 adjacency rows, against the plain reference.

  The kernel keeps two buffers across grid points: the support vectors (x W1 through the first pass, relu(h) W2 through
  the second) and the hidden activations h, of which the first pass's point r stores rows [400 r, 400 r + 400). The
  result window is idle through the first pass and is stored and written back once per block in the second. The frame
  of the kernel (at the word level and at the extended reals, one text generic in the float instance) runs the body in
  its four control cases (first point; later points of the first pass; first point of the second pass; later points)
  under an invariant that names the support vectors exactly and the hidden activations on the rows stored so far. At
  the extended reals every matrix product into a zero accumulator is the reference's dot_general (the same sum over
  the contracted axis, in the same order), the rectifier is the same maximum with zero, and each 400-row block of
  `adj s + b` is the reference's rows of the same product plus the broadcast bias: the result array, block by block,
  is the reference's result. No finiteness of the inputs is used: both sides are the same sums and additions.
-/
import proofs.«151533_g13606456393732_cont_sun_m_1345_4_alg».proof.Defs
import proofs.«151533_g13606456393732_cont_sun_m_1345_4_alg».proof.Proof.Gen.Kernel
import proofs.«151533_g13606456393732_cont_sun_m_1345_4_alg».proof.Proof.Gen.KernelIdeal
import proofs.«151533_g13606456393732_cont_sun_m_1345_4_alg».proof.Proof.Gen.ReferenceIdeal
import proofs.«151533_g13606456393732_cont_sun_m_1345_4_alg».proof.Proof.Gen.Pre_finite_inputs
import proofs.«151533_g13606456393732_cont_sun_m_1345_4_alg».proof.Proof.Gen.ReferenceIdeal.Run
import proofs.«151533_g13606456393732_cont_sun_m_1345_4_alg».proof.Proof.Gen.ReferenceIdeal.Read
import proofs.«151533_g13606456393732_cont_sun_m_1345_4_alg».proof.Proof.KBBody
import proofs.«151533_g13606456393732_cont_sun_m_1345_4_alg».proof.Proof.KIBody
import proofs.«151533_g13606456393732_cont_sun_m_1345_4_alg».proof.Proof.KIValue
import Idealize.ShloMosaic.Adequacy
import Idealize.ShloMosaic.Init

noncomputable section

namespace Cert.Proof

open Idealize.ShloMosaic Idealize.ShloMosaic.TcCoe Idealize.SL.Sem

/-- The word-level kernel runs, faults nowhere and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs, faults nowhere and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs (its generated run, the result dropped). -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

open Cert.KernelIdeal Cert.KernelIdeal.Gen in
/-- The idealized kernel's run with its result array named: after every write-back it holds the reference's result
    of the launched arguments, and the arguments are unchanged. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v0) = Cert.KernelIdeal.GcnValue.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (Cert.KernelIdeal.GcnValue.final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

/-- From memories that agree on the arguments both programs end with the same result array: the kernel's, block by
    block, is the reference's composed term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.GcnValue.G m c, run_kernel m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v10_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
